-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S4096x1024 : Shape := ⟨2, ![4096, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 19
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4096x1024, .bf16⟩
  | .hbm, ⟨8, _⟩ => ⟨S4096x1024, .bf16⟩
  | .hbm, ⟨9, _⟩ => ⟨S1024x4x1024, .f32⟩
  | .hbm, ⟨10, _⟩ => ⟨S1024x4096, .f32⟩
  | .hbm, ⟨11, _⟩ => ⟨S1024x4096, .bf16⟩
  | .hbm, ⟨12, _⟩ => ⟨S1024x4x1024, .f32⟩
  | .hbm, ⟨13, _⟩ => ⟨S1024x4096, .f32⟩
  | .hbm, ⟨14, _⟩ => ⟨S1024x4096, .bf16⟩
  | .hbm, ⟨15, _⟩ => ⟨S4x1024, .f32⟩
  | .hbm, ⟨16, _⟩ => ⟨S1x4096, .f32⟩
  | .hbm, ⟨17, _⟩ => ⟨S4096x1024, .f32⟩
  | .hbm, ⟨18, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  transposes_S4x1024x1024_S1024x4x1024_2_0_1 : S4x1024x1024.Transposes [2, 0, 1] S1024x4x1024
  shapeCasts_S1024x4x1024_S1024x4096 : S1024x4x1024.ShapeCasts S1024x4096
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x1x1024 : Shape := ⟨3, ![4, 1, 1024]⟩
abbrev S1x4096x1024 : Shape := ⟨3, ![1, 4096, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x4096, .f32⟩
  | .hbm, ⟨8, _⟩ => ⟨S4x4096x1024, .f32⟩
  | .hbm, ⟨9, _⟩ => ⟨S4x1x1024, .f32⟩
  | .hbm, ⟨10, _⟩ => ⟨S4x4096x1024, .f32⟩
  | .hbm, ⟨11, _⟩ => ⟨S4x4096x1024, .f32⟩
  | .hbm, ⟨12, _⟩ => ⟨S4x1024x4096, .f32⟩
  | .hbm, ⟨13, _⟩ => ⟨S4x4096x1024, .f32⟩
  | .hbm, ⟨14, _⟩ => ⟨S4x1x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S1x4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S1x4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S1x4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S1x4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x1024x4096_S4x4096x1024_0_2_1 : S4x1024x4096.Transposes [0, 2, 1] S4x4096x1024
  bcast_S4x1024_S4x1x1024_0_2 : S4x1024.BroadcastsInDim S4x1x1024 (![0, 2] : Fin 2 → Fin S4x1x1024.rank)
  bcast_S4x1x1024_S4x4096x1024_0_1_2 : S4x1x1024.BroadcastsInDim S4x4096x1024 (![0, 1, 2] : Fin 3 → Fin S4x4096x1024.rank)
  slices_S4x4096x1024_S1x4096x1024_0_0_0 : S4x4096x1024.Slices ![0, 0, 0] S1x4096x1024
  shapeCasts_S1x4096x1024_S4096x1024 : S1x4096x1024.ShapeCasts S4096x1024
  bcast_S_S4096x1024 : S_.BroadcastsInDim S4096x1024 (![] : Fin 0 → Fin S4096x1024.rank)
  slices_S4x4096x1024_S1x4096x1024_1_0_0 : S4x4096x1024.Slices ![1, 0, 0] S1x4096x1024
  slices_S4x4096x1024_S1x4096x1024_2_0_0 : S4x4096x1024.Slices ![2, 0, 0] S1x4096x1024
  slices_S4x4096x1024_S1x4096x1024_3_0_0 : S4x4096x1024.Slices ![3, 0, 0] S1x4096x1024
  dot_S4x1024x1024_S4096x1024_S4x1024x4096_2_1_01_0_n_n_wf : DotDims.WF S4x1024x1024 S4096x1024 S4x1024x4096 [2] [1] [0, 1] [0] [] []

variable [Facts₀]

def dot_S4x1024x1024_S4096x1024_S4x1024x4096_2_1_01_0_n_n : DotDims S4x1024x1024 S4096x1024 S4x1024x4096 where
  lhsContracting := [2]
  rhsContracting := [1]
  lhsNonContracting := [0, 1]
  rhsNonContracting := [0]
  lhsBatch := []
  rhsBatch := []
  wf := dot_S4x1024x1024_S4096x1024_S4x1024x4096_2_1_01_0_n_n_wf

class Facts : Prop extends Facts₀ where

variable [Facts]
-- ==== Proof.CellSpec.lean ====
/-
  One step of an LSTM cell, entry by entry, over the extended reals.

  The inputs are a batch of 4096 rows: `x` (the step's input), `h` (the previous hidden state) and `c` (the previous
  cell state), each 4096 × 1024; four gates' weights `W` and `U` (each 4 × 1024 × 1024, gate × unit × feature) and
  biases `bW`, `bU` (each 4 × 1024, gate × unit). Gate `g`'s pre-activation at batch row `b` and unit `j` is

      pre g b j = (∑ k, W (g, j, k) · x (b, k) + bW (g, j)) + (∑ k, U (g, j, k) · h (b, k) + bU (g, j)),

  and with σ z = 1 / (1 + e^(-z)) the new cell and hidden states are

      cell (b, j)   = σ (pre 0 b j) · tanh (pre 3 b j) + σ (pre 1 b j) · c (b, j),
      hidden (b, j) = σ (pre 2 b j) · tanh (cell (b, j)).

  Two facts about these formulas are proved here, both valid at every extended real, infinite ones included, so that no
  finiteness of the inputs is used anywhere:

  * `pre_fused`: the two products may be formed with the factors in the other order and added before the two biases,
    themselves added first: (∑ x·W + ∑ h·U) + (bW + bU). Only commutativity of the product and commutativity and
    associativity of the sum are used; both hold on the extended reals.
  * `logistic_spelled`: σ written out with the constant one, a sum, an exponential of a negation and a quotient is the
    logistic function; this is how that function is defined on the extended reals (with σ ⊥ = 0 and σ ⊤ = 1 as its
    values at the infinities), once the binary pattern of the constant is read as the number one.
-/
import Idealize.ShloMosaic.PureOps.Ideal.Laws
import Idealize.ShloMosaic.PureOps.IdealRules
import Idealize.ShloMosaic.Lib.ValueIdx

noncomputable section

open scoped BigOperators

namespace Cert.LstmCell

open Idealize.ShloMosaic Idealize.ShloMosaic.ValueIdx

/-- Batch row × unit (or feature): the shape of `x`, `h`, `c` and of both results. -/
abbrev Rows : Shape := ⟨2, ![4096, 1024]⟩
/-- Gate × unit × feature: the shape of `W` and `U`. -/
abbrev Weights : Shape := ⟨3, ![4, 1024, 1024]⟩
/-- Gate × unit: the shape of `bW` and `bU`. -/
abbrev Biases : Shape := ⟨2, ![4, 1024]⟩

section
variable (x h c : Rows.Idx → EReal) (W U : Weights.Idx → EReal) (bW bU : Biases.Idx → EReal)

/-- Gate `g`'s pre-activation at batch row `b` and unit `j`: the input's and the hidden state's contributions, each
    a sum of products over the 1024 features plus its bias, added. -/
def pre (g : Fin 4) (b : Fin 4096) (j : Fin 1024) : EReal :=
  ((∑ k : Fin 1024, W (ix3 g j k) * x (ix2 b k)) + bW (ix2 g j))
    + ((∑ k : Fin 1024, U (ix3 g j k) * h (ix2 b k)) + bU (ix2 g j))

/-- The new cell state: input gate (0) times candidate (3), plus forget gate (1) times the old cell state. -/
def cell : Rows.Idx → EReal := fun i =>
  Ideal.logistic (pre x h W U bW bU 0 (i 0) (i 1)) * Ideal.tanh (pre x h W U bW bU 3 (i 0) (i 1))
    + Ideal.logistic (pre x h W U bW bU 1 (i 0) (i 1)) * c i

/-- The new hidden state: output gate (2) times the hyperbolic tangent of the new cell state. -/
def hidden : Rows.Idx → EReal := fun i =>
  Ideal.logistic (pre x h W U bW bU 2 (i 0) (i 1)) * Ideal.tanh (cell x h c W U bW bU i)

/-- The pre-activation with the products' factors exchanged, the two sums added first and the two biases added
    first. -/
theorem pre_fused (g : Fin 4) (b : Fin 4096) (j : Fin 1024) :
    ((∑ k : Fin 1024, x (ix2 b k) * W (ix3 g j k)) + (∑ k : Fin 1024, h (ix2 b k) * U (ix3 g j k)))
        + (bW (ix2 g j) + bU (ix2 g j))
      = pre x h W U bW bU g b j := by
  have ex : (∑ k : Fin 1024, x (ix2 b k) * W (ix3 g j k)) = ∑ k : Fin 1024, W (ix3 g j k) * x (ix2 b k) :=
    Finset.sum_congr rfl fun k _ => mul_comm _ _
  have eh : (∑ k : Fin 1024, h (ix2 b k) * U (ix3 g j k)) = ∑ k : Fin 1024, U (ix3 g j k) * h (ix2 b k) :=
    Finset.sum_congr rfl fun k _ => mul_comm _ _
  rw [ex, eh, add_add_add_comm]
  rfl

end

/-- The binary pattern 0x3F800000 is the number one. -/
theorem one_f32 : Ideal.ofBits .f32 0x3F800000#32 = 1 := IdealRules.sign_bit.ideal_onePat .f32

/-- The logistic function written out: one over one plus the exponential of the negation. -/
theorem logistic_spelled (z : EReal) :
    Ideal.div (Ideal.ofBits .f32 0x3F800000#32) (Ideal.ofBits .f32 0x3F800000#32 + Ideal.exp (-z)) = Ideal.logistic z := by
  rw [one_f32]
  rfl

end Cert.LstmCell
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelBlock.lean ====
/-
  One block of the kernel's two results, entry by entry.

  At a grid point the kernel holds 256 batch rows of `x`, `h` and `c`, and the whole of three fused arrays: the input
  weights and the hidden weights, each 1024 × 4096 with gate `g`'s unit `j` in column `j + 1024·g` and the feature along
  the rows, and the summed biases, 1 × 4096 with the same columns. It forms the 256 × 4096 array

      fused (p, q) = (∑ k, x (p, k) · Win (k, q) + ∑ k, h (p, k) · Whid (k, q)) + bias (0, q)

  (`fused_at`: each matrix product into a zero accumulator is the plain sum of products; re-shaping an array to its own
  shape changes nothing; broadcasting the one-row bias down the rows reads its row 0). Column `j + 1024·g` of `fused`
  is therefore gate `g`'s pre-activation at unit `j` of that batch row, with the products' factors exchanged and the sums
  grouped differently (`gate_at`, by `pre_fused`). The four quarters of `fused` along the columns are the four gates, and
  the two stored blocks are the cell formulas over them: `block_cell` and `block_hidden`.

  Everything is stated over arbitrary loaded blocks `P0 … P5` and a batch row `b` of the whole arrays, under the
  hypotheses that say what the loaded blocks hold (`Loaded`).
-/
import proofs.«180398_j80891414053127_1_alg».proof.Proof.Gen.KernelIdeal.Value
import proofs.«180398_j80891414053127_1_alg».proof.Proof.LibDotPlain
import proofs.«180398_j80891414053127_1_alg».proof.Proof.CellSpec
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Cert.KernelIdeal.Value Cert.LstmCell
open Idealize.ShloMosaic Idealize.ShloMosaic.ValueIdx

/-- The column of the fused arrays that holds gate `g`'s unit `j`. -/
def col (g : Fin 4) (j : Fin 1024) : Fin 4096 :=
  ⟨j.val + g.val * 1024, by have hg := g.isLt; have hj := j.isLt; omega⟩

/-! ## The fused pre-activations at one entry -/

/-- Entry (p, q) of the 256 × 4096 array the body forms from its loads: the two sums of products and the bias of
    column `q`. -/
theorem fused_at (P0 P1 : Vec Ideal S256x1024 .bf16) (P2 P3 : Vec Ideal S1024x4096 .bf16) (P4 : Vec Ideal S1x4096 .f32)
    (p : Fin 256) (q : Fin 4096) :
    k0_pay1 (F := Ideal) P0 P1 P2 P3 P4 (ix2 p q)
      = ((∑ k : Fin 1024, P0 (ix2 p k) * P2 (ix2 k q)) + (∑ k : Fin 1024, P1 (ix2 p k) * P3 (ix2 k q)))
          + P4 (ix2 (0 : Fin 1) q) := by
  have e1 : matmul (φ₁ := .bf16) (φ₂ := .bf16) dot_S256x1024_S1024x4096_S256x4096_1_0_0_1_n_n none
        (shapeCast S256x1024 P0 shapeCasts_S256x1024_S256x1024) (shapeCast S1024x4096 P2 shapeCasts_S1024x4096_S1024x4096)
        (constant (F := Ideal) S256x4096 .f32 0x00000000#32) (ix2 p q)
      = ∑ k : Fin 1024, P0 (ix2 p k) * P2 (ix2 k q) := by
    rw [shapeCast_self, shapeCast_self]
    exact Cert.LibDotPlain.matmul_zero_plain (φ₁ := .bf16) (φ₂ := .bf16) 256 1024 4096 none P0 P2 p q
  have e2 : matmul (φ₁ := .bf16) (φ₂ := .bf16) dot_S256x1024_S1024x4096_S256x4096_1_0_0_1_n_n none
        (shapeCast S256x1024 P1 shapeCasts_S256x1024_S256x1024) (shapeCast S1024x4096 P3 shapeCasts_S1024x4096_S1024x4096)
        (constant (F := Ideal) S256x4096 .f32 0x00000000#32) (ix2 p q)
      = ∑ k : Fin 1024, P1 (ix2 p k) * P3 (ix2 k q) := by
    rw [shapeCast_self, shapeCast_self]
    exact Cert.LibDotPlain.matmul_zero_plain (φ₁ := .bf16) (φ₂ := .bf16) 256 1024 4096 none P1 P3 p q
  have e3 : broadcastTo S256x4096 (shapeCast S1x4096 P4 shapeCasts_S1x4096_S1x4096) broadcasts_S1x4096_S256x4096 (ix2 p q)
      = P4 (ix2 (0 : Fin 1) q) := by
    rw [shapeCast_self]
    exact broadcastTo_apply P4 broadcasts_S1x4096_S256x4096 (ix2 p q) (ix2 (0 : Fin 1) q) (fun a => match a with
      | ⟨0, _⟩ => by show (0 : Nat) = if (1 : Nat) = 1 then 0 else _; rw [if_pos rfl]
      | ⟨1, _⟩ => by show q.val = if (4096 : Nat) = 1 then 0 else q.val; rw [if_neg (by decide)])
  unfold k0_pay1
  show (matmul (φ₁ := .bf16) (φ₂ := .bf16) dot_S256x1024_S1024x4096_S256x4096_1_0_0_1_n_n none
        (shapeCast S256x1024 P0 shapeCasts_S256x1024_S256x1024) (shapeCast S1024x4096 P2 shapeCasts_S1024x4096_S1024x4096)
        (constant (F := Ideal) S256x4096 .f32 0x00000000#32) (ix2 p q)
      + matmul (φ₁ := .bf16) (φ₂ := .bf16) dot_S256x1024_S1024x4096_S256x4096_1_0_0_1_n_n none
        (shapeCast S256x1024 P1 shapeCasts_S256x1024_S256x1024) (shapeCast S1024x4096 P3 shapeCasts_S1024x4096_S1024x4096)
        (constant (F := Ideal) S256x4096 .f32 0x00000000#32) (ix2 p q))
      + broadcastTo S256x4096 (shapeCast S1x4096 P4 shapeCasts_S1x4096_S1x4096) broadcasts_S1x4096_S256x4096 (ix2 p q) = _
  rw [e1, e2, e3]

/-! ## What the loaded blocks hold -/

/-- The loaded blocks read the whole arrays: row `p` of the three batch blocks is batch row `b`; the fused weights hold
    gate `g`'s unit `j` and feature `k` at row `k`, column `col g j`; the fused bias holds the two biases' sum. -/
structure Loaded (P0 P1 : Vec Ideal S256x1024 .bf16) (P2 P3 : Vec Ideal S1024x4096 .bf16) (P4 : Vec Ideal S1x4096 .f32)
    (P5 : Vec Ideal S256x1024 .f32) (x h c : Rows.Idx → EReal) (W U : Weights.Idx → EReal) (bW bU : Biases.Idx → EReal)
    (p : Fin 256) (b : Fin 4096) : Prop where
  input : ∀ k : Fin 1024, P0 (ix2 p k) = x (ix2 b k)
  state : ∀ k : Fin 1024, P1 (ix2 p k) = h (ix2 b k)
  memory : ∀ j : Fin 1024, P5 (ix2 p j) = c (ix2 b j)
  inW : ∀ (k : Fin 1024) (g : Fin 4) (j : Fin 1024), P2 (ix2 k (col g j)) = W (ix3 g j k)
  hidW : ∀ (k : Fin 1024) (g : Fin 4) (j : Fin 1024), P3 (ix2 k (col g j)) = U (ix3 g j k)
  bias : ∀ (g : Fin 4) (j : Fin 1024), P4 (ix2 (0 : Fin 1) (col g j)) = bW (ix2 g j) + bU (ix2 g j)

section
variable {P0 P1 : Vec Ideal S256x1024 .bf16} {P2 P3 : Vec Ideal S1024x4096 .bf16} {P4 : Vec Ideal S1x4096 .f32}
  {P5 : Vec Ideal S256x1024 .f32} {x h c : Rows.Idx → EReal} {W U : Weights.Idx → EReal} {bW bU : Biases.Idx → EReal}
  {p : Fin 256} {b : Fin 4096}

/-- Column `col g j` of the fused array, at block row `p`, is gate `g`'s pre-activation at batch row `b`, unit `j`. -/
theorem gate_at (L : Loaded P0 P1 P2 P3 P4 P5 x h c W U bW bU p b) (g : Fin 4) (j : Fin 1024) :
    k0_pay1 (F := Ideal) P0 P1 P2 P3 P4 (ix2 p (col g j)) = pre x h W U bW bU g b j := by
  rw [fused_at, L.bias]
  have ex : (∑ k : Fin 1024, P0 (ix2 p k) * P2 (ix2 k (col g j))) = ∑ k : Fin 1024, x (ix2 b k) * W (ix3 g j k) :=
    Finset.sum_congr rfl fun k _ => by rw [L.input, L.inW]
  have eh : (∑ k : Fin 1024, P1 (ix2 p k) * P3 (ix2 k (col g j))) = ∑ k : Fin 1024, h (ix2 b k) * U (ix3 g j k) :=
    Finset.sum_congr rfl fun k _ => by rw [L.state, L.hidW]
  rw [ex, eh]
  exact pre_fused x h W U bW bU g b j

/-! ## Where the two stored blocks read the fused array -/

theorem cell_reads_gate0 (p : Fin 256) (j : Fin 1024) : ix7_0 (ix2 p j) = ix2 p (col 0 j) := by
  funext a; apply Fin.ext
  match a with
  | ⟨0, _⟩ => rfl
  | ⟨1, _⟩ => show j.val = j.val + (0 : Fin 4).val * 1024; simp
theorem cell_reads_gate3 (p : Fin 256) (j : Fin 1024) : ix7_1 (ix2 p j) = ix2 p (col 3 j) := by
  funext a; apply Fin.ext
  match a with
  | ⟨0, _⟩ => rfl
  | ⟨1, _⟩ => rfl
theorem cell_reads_gate1 (p : Fin 256) (j : Fin 1024) : ix7_2 (ix2 p j) = ix2 p (col 1 j) := by
  funext a; apply Fin.ext
  match a with
  | ⟨0, _⟩ => rfl
  | ⟨1, _⟩ => rfl
theorem cell_reads_memory (p : Fin 256) (j : Fin 1024) : ix7_3 (ix2 p j) = ix2 p j := by
  funext a; apply Fin.ext
  match a with
  | ⟨0, _⟩ => rfl
  | ⟨1, _⟩ => rfl

theorem hidden_reads_gate2 (p : Fin 256) (j : Fin 1024) : ix6_0 (ix2 p j) = ix2 p (col 2 j) := by
  funext a; apply Fin.ext
  match a with
  | ⟨0, _⟩ => rfl
  | ⟨1, _⟩ => rfl
theorem hidden_reads_gate0 (p : Fin 256) (j : Fin 1024) : ix6_1 (ix2 p j) = ix2 p (col 0 j) := by
  funext a; apply Fin.ext
  match a with
  | ⟨0, _⟩ => rfl
  | ⟨1, _⟩ => show j.val = j.val + (0 : Fin 4).val * 1024; simp
theorem hidden_reads_gate3 (p : Fin 256) (j : Fin 1024) : ix6_2 (ix2 p j) = ix2 p (col 3 j) := by
  funext a; apply Fin.ext
  match a with
  | ⟨0, _⟩ => rfl
  | ⟨1, _⟩ => rfl
theorem hidden_reads_gate1 (p : Fin 256) (j : Fin 1024) : ix6_3 (ix2 p j) = ix2 p (col 1 j) := by
  funext a; apply Fin.ext
  match a with
  | ⟨0, _⟩ => rfl
  | ⟨1, _⟩ => rfl
theorem hidden_reads_memory (p : Fin 256) (j : Fin 1024) : ix6_4 (ix2 p j) = ix2 p j := by
  funext a; apply Fin.ext
  match a with
  | ⟨0, _⟩ => rfl
  | ⟨1, _⟩ => rfl

/-! ## The two stored blocks -/

/-- Entry (p, j) of the block stored to the cell-state result is the new cell state at batch row `b`, unit `j`. -/
theorem block_cell (L : Loaded P0 P1 P2 P3 P4 P5 x h c W U bW bU p b) (j : Fin 1024) :
    E7 (F := Ideal) P0 P1 P2 P3 P4 P5 (ix2 p j) = cell x h c W U bW bU (ix2 b j) := by
  show FloatOps.addf (FloatOps.mulf (FloatOps.logistic ((k0_pay1 (F := Ideal) P0 P1 P2 P3 P4) (ix7_0 (ix2 p j))))
        (FloatOps.tanh ((k0_pay1 (F := Ideal) P0 P1 P2 P3 P4) (ix7_1 (ix2 p j)))))
      (FloatOps.mulf (FloatOps.logistic ((k0_pay1 (F := Ideal) P0 P1 P2 P3 P4) (ix7_2 (ix2 p j)))) (P5 (ix7_3 (ix2 p j)))) = _
  rw [cell_reads_gate0, cell_reads_gate3, cell_reads_gate1, cell_reads_memory, gate_at L, gate_at L, gate_at L, L.memory]
  rfl

/-- Entry (p, j) of the block stored to the hidden-state result is the new hidden state at batch row `b`, unit `j`. -/
theorem block_hidden (L : Loaded P0 P1 P2 P3 P4 P5 x h c W U bW bU p b) (j : Fin 1024) :
    E6 (F := Ideal) P0 P1 P2 P3 P4 P5 (ix2 p j) = hidden x h c W U bW bU (ix2 b j) := by
  show FloatOps.mulf (FloatOps.logistic ((k0_pay1 (F := Ideal) P0 P1 P2 P3 P4) (ix6_0 (ix2 p j))))
      (FloatOps.tanh (FloatOps.addf
        (FloatOps.mulf (FloatOps.logistic ((k0_pay1 (F := Ideal) P0 P1 P2 P3 P4) (ix6_1 (ix2 p j))))
          (FloatOps.tanh ((k0_pay1 (F := Ideal) P0 P1 P2 P3 P4) (ix6_2 (ix2 p j)))))
        (FloatOps.mulf (FloatOps.logistic ((k0_pay1 (F := Ideal) P0 P1 P2 P3 P4) (ix6_3 (ix2 p j)))) (P5 (ix6_4 (ix2 p j)))))) = _
  rw [hidden_reads_gate2, hidden_reads_gate0, hidden_reads_gate3, hidden_reads_gate1, hidden_reads_memory,
    gate_at L, gate_at L, gate_at L, gate_at L, L.memory]
  rfl

end

end Cert.KernelIdeal.BlockValue
-- ==== Proof.KernelArrays.lean ====
/-
  The kernel's two result arrays, whole.

  Before the kernel is launched the host prepares its operands: `x` and `h` are narrowed to bf16 (at the extended reals a
  change of format is the identity); each weight array (gate × unit × feature) is transposed to feature × gate × unit and
  re-shaped to feature × 4096, which puts gate `g`'s unit `j` in column `j + 1024·g` of row `k` (`entry_inW`, `entry_hidW`:
  row-major positions (k·4 + g)·1024 + j and k·4096 + (j + 1024·g) are the same number); the two biases are added and
  re-shaped from gate × unit to one row of 4096 with the same columns (`entry_bias`).

  The grid has 16 points; point `t` works on batch rows 256·t … 256·t + 255 (`row`): the blocks of `x`, `h`, `c` and of both
  results at `t` are those rows, all columns, and the weights and the bias are staged whole (`steps`, decided over the
  grid). So what the kernel loads at point `t` is what `Loaded` asks (`loaded`), each point writes back the block of the
  cell formulas at its rows (`flushed_hidden`, `flushed_cell`), the 16 blocks cover all 4096 rows (`cover_hidden`,
  `cover_cell`: row `r` lies in the block of point `r / 256`), and both result arrays end holding the cell formulas of the
  argument arrays (`final_hidden`, `final_cell`, `run`).
-/
import proofs.«180398_j80891414053127_1_alg».proof.Proof.Gen.KernelIdeal.Value
import proofs.«180398_j80891414053127_1_alg».proof.Proof.KernelBlock
import proofs.«180398_j80891414053127_1_alg».proof.Proof.CellSpec
import Idealize.ShloMosaic.Lib.Pipeline.Value
import Idealize.ShloMosaic.Lib.StableHlo.Run
import Idealize.ShloMosaic.Lib.Tactic

set_option maxRecDepth 16384

noncomputable section

namespace Cert.KernelIdeal.ArrayValue

open Cert.KernelIdeal Cert.KernelIdeal.Gen Cert.KernelIdeal.Value Cert.KernelIdeal.BlockValue Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The seven argument arrays -/

abbrev argX (c : Dev nD) : Rows.Idx → EReal := m ((c : Thread nD τ).loc main_arg0)
abbrev argH (c : Dev nD) : Rows.Idx → EReal := m ((c : Thread nD τ).loc main_arg1)
abbrev argC (c : Dev nD) : Rows.Idx → EReal := m ((c : Thread nD τ).loc main_arg2)
abbrev argW (c : Dev nD) : Weights.Idx → EReal := m ((c : Thread nD τ).loc main_arg3)
abbrev argBW (c : Dev nD) : Biases.Idx → EReal := m ((c : Thread nD τ).loc main_arg4)
abbrev argU (c : Dev nD) : Weights.Idx → EReal := m ((c : Thread nD τ).loc main_arg5)
abbrev argBU (c : Dev nD) : Biases.Idx → EReal := m ((c : Thread nD τ).loc main_arg6)

/-- The new hidden state of the argument arrays. -/
abbrev hiddenOf (c : Dev nD) : Rows.Idx → EReal :=
  hidden (argX m c) (argH m c) (argC m c) (argW m c) (argU m c) (argBW m c) (argBU m c)
/-- The new cell state of the argument arrays. -/
abbrev cellOf (c : Dev nD) : Rows.Idx → EReal :=
  cell (argX m c) (argH m c) (argC m c) (argW m c) (argU m c) (argBW m c) (argBU m c)

/-! ## What the host prepares -/

/-- The narrowed input is the input. -/
theorem entry_input (c : Dev nD) (i : S4096x1024.Idx) : (V m c main_v0 : S4096x1024.Idx → EReal) i = argX m c i := by
  have e : (V m c main_v0 : S4096x1024.Idx → EReal) = truncf (F := Ideal) .bf16 (argX m c) bitsLt_bf16_f32 := by
    dsimp only [V, hostOps0]; after_results
  rw [e]; rfl

/-- The narrowed hidden state is the hidden state. -/
theorem entry_state (c : Dev nD) (i : S4096x1024.Idx) : (V m c main_v1 : S4096x1024.Idx → EReal) i = argH m c i := by
  have e : (V m c main_v1 : S4096x1024.Idx → EReal) = truncf (F := Ideal) .bf16 (argH m c) bitsLt_bf16_f32 := by
    dsimp only [V, hostOps0]; after_results
  rw [e]; rfl

/-- The cell state is staged as launched. -/
theorem entry_memory (c : Dev nD) (i : S4096x1024.Idx) : (V m c main_arg2 : S4096x1024.Idx → EReal) i = argC m c i := by
  rw [V_main_arg2]

/-- Transposing gate × unit × feature to feature × gate × unit and re-shaping to feature × 4096 puts entry (g, j, k) at
    row `k`, column `j + 1024·g`. -/
theorem fuse_at (A : Weights.Idx → EReal) (k : Fin 1024) (g : Fin 4) (j : Fin 1024) :
    shapeCast S1024x4096 (transpose S1024x4x1024 [2, 0, 1] A transposes_S4x1024x1024_S1024x4x1024_2_0_1)
        shapeCasts_S1024x4x1024_S1024x4096 (ix2 k (col g j))
      = A (ix3 g j k) := by
  have hk := k.isLt; have hg := g.isLt; have hj := j.isLt
  refine (shapeCast_apply _ shapeCasts_S1024x4x1024_S1024x4096 (ix2 k (col g j)) (ix3 k g j) ?_).trans ?_
  · rewrite [Shape.rowMajor_val_three, Shape.rowMajor_val_two]
    show (k.val * 4 + g.val) * 1024 + j.val = k.val * 4096 + (j.val + g.val * 1024)
    omega
  · exact transpose_apply [2, 0, 1] A transposes_S4x1024x1024_S1024x4x1024_2_0_1 (ix3 k g j) (ix3 g j k) (fun b => match b with
      | ⟨0, _⟩ => rfl
      | ⟨1, _⟩ => rfl
      | ⟨2, _⟩ => rfl)

/-- The fused input weights. -/
theorem entry_inW (c : Dev nD) (k : Fin 1024) (g : Fin 4) (j : Fin 1024) :
    (V m c main_v4 : S1024x4096.Idx → EReal) (ix2 k (col g j)) = argW m c (ix3 g j k) := by
  have e : (V m c main_v4 : S1024x4096.Idx → EReal) = truncf (F := Ideal) .bf16
      (shapeCast S1024x4096 (transpose S1024x4x1024 [2, 0, 1] (argW m c) transposes_S4x1024x1024_S1024x4x1024_2_0_1)
        shapeCasts_S1024x4x1024_S1024x4096) bitsLt_bf16_f32 := by
    dsimp only [V, hostOps0]; after_results; rfl
  rw [e]
  exact fuse_at (argW m c) k g j

/-- The fused hidden weights. -/
theorem entry_hidW (c : Dev nD) (k : Fin 1024) (g : Fin 4) (j : Fin 1024) :
    (V m c main_v7 : S1024x4096.Idx → EReal) (ix2 k (col g j)) = argU m c (ix3 g j k) := by
  have e : (V m c main_v7 : S1024x4096.Idx → EReal) = truncf (F := Ideal) .bf16
      (shapeCast S1024x4096 (transpose S1024x4x1024 [2, 0, 1] (argU m c) transposes_S4x1024x1024_S1024x4x1024_2_0_1)
        shapeCasts_S1024x4x1024_S1024x4096) bitsLt_bf16_f32 := by
    dsimp only [V, hostOps0]; after_results; rfl
  rw [e]
  exact fuse_at (argU m c) k g j

/-- The fused bias: the two biases added, gate `g`'s unit `j` in column `j + 1024·g` of the one row. -/
theorem entry_bias (c : Dev nD) (g : Fin 4) (j : Fin 1024) :
    (V m c main_v9 : S1x4096.Idx → EReal) (ix2 (0 : Fin 1) (col g j)) = argBW m c (ix2 g j) + argBU m c (ix2 g j) := by
  have hg := g.isLt; have hj := j.isLt
  have e : (V m c main_v9 : S1x4096.Idx → EReal)
      = shapeCast S1x4096 (addf (F := Ideal) (φ := .f32) (argBW m c) (argBU m c)) shapeCasts_S4x1024_S1x4096 := by
    dsimp only [V, hostOps0]; after_results; rfl
  rw [e]
  refine (shapeCast_apply _ shapeCasts_S4x1024_S1x4096 (ix2 (0 : Fin 1) (col g j)) (ix2 g j) ?_).trans rfl
  rewrite [Shape.rowMajor_val_two, Shape.rowMajor_val_two]
  show g.val * 1024 + j.val = 0 * 4096 + (j.val + g.val * 1024)
  omega

/-! ## The grid -/

/-- Which block each window is on at point `t`: the five batch windows on block `t` of the rows, the three fused operands on
    their one block. -/
theorem steps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 16 := t.isLt.trans_eq N_0

/-- The batch row that row `p` of a block is at point `t`. -/
def row (t : Fin cfg0.N) (p : Fin 256) : Fin 4096 :=
  ⟨t.val * 256 + p.val, by have ht := point_lt t; have hp := p.isLt; omega⟩

theorem hz : (![0, 0] : Fin 2 → Nat) = fun _ => 0 := funext fun a => by fin_cases a <;> rfl

/-! ## The loaded blocks at a point -/

abbrev xblk (c : Dev nD) (t : Fin cfg0.N) : Vec Ideal S256x1024 .bf16 := iblk m c 0 t
abbrev hblk (c : Dev nD) (t : Fin cfg0.N) : Vec Ideal S256x1024 .bf16 := iblk m c 1 t
abbrev cblk (c : Dev nD) (t : Fin cfg0.N) : Vec Ideal S256x1024 .f32 := iblk m c 2 t
abbrev wblk (c : Dev nD) (t : Fin cfg0.N) : Vec Ideal S1024x4096 .bf16 := iblk m c 3 t
abbrev ublk (c : Dev nD) (t : Fin cfg0.N) : Vec Ideal S1024x4096 .bf16 := iblk m c 4 t
abbrev bblk (c : Dev nD) (t : Fin cfg0.N) : Vec Ideal S1x4096 .f32 := iblk m c 5 t

theorem xblk_at (c : Dev nD) (t : Fin cfg0.N) (p : Fin 256) (k : Fin 1024) :
    xblk m c t (ix2 p k) = argX m c (ix2 (row t p) k) := by
  obtain ⟨e00, e01, -⟩ := steps t
  show (V m c main_v0 : S4096x1024.Idx → EReal) (((cfg0.win 0).blk t).view.emb (ix2 p k)) = _
  rw [entry_input]
  congr 1
  funext a; apply Fin.ext
  match a with
  | ⟨0, _⟩ => show win0_0.index t (0 : Fin 2) * 256 + 1 * p.val = t.val * 256 + p.val; rw [e00]; omega
  | ⟨1, _⟩ => show win0_0.index t (1 : Fin 2) * 1024 + 1 * k.val = k.val; rw [e01]; omega

theorem hblk_at (c : Dev nD) (t : Fin cfg0.N) (p : Fin 256) (k : Fin 1024) :
    hblk m c t (ix2 p k) = argH m c (ix2 (row t p) k) := by
  obtain ⟨-, -, e10, e11, -⟩ := steps t
  show (V m c main_v1 : S4096x1024.Idx → EReal) (((cfg0.win 1).blk t).view.emb (ix2 p k)) = _
  rw [entry_state]
  congr 1
  funext a; apply Fin.ext
  match a with
  | ⟨0, _⟩ => show win0_1.index t (0 : Fin 2) * 256 + 1 * p.val = t.val * 256 + p.val; rw [e10]; omega
  | ⟨1, _⟩ => show win0_1.index t (1 : Fin 2) * 1024 + 1 * k.val = k.val; rw [e11]; omega

theorem cblk_at (c : Dev nD) (t : Fin cfg0.N) (p : Fin 256) (j : Fin 1024) :
    cblk m c t (ix2 p j) = argC m c (ix2 (row t p) j) := by
  obtain ⟨-, -, -, -, e20, e21, -⟩ := steps t
  show (V m c main_arg2 : S4096x1024.Idx → EReal) (((cfg0.win 2).blk t).view.emb (ix2 p j)) = _
  rw [entry_memory]
  congr 1
  funext a; apply Fin.ext
  match a with
  | ⟨0, _⟩ => show win0_2.index t (0 : Fin 2) * 256 + 1 * p.val = t.val * 256 + p.val; rw [e20]; omega
  | ⟨1, _⟩ => show win0_2.index t (1 : Fin 2) * 1024 + 1 * j.val = j.val; rw [e21]; omega

theorem wblk_at (c : Dev nD) (t : Fin cfg0.N) (k : Fin 1024) (g : Fin 4) (j : Fin 1024) :
    wblk m c t (ix2 k (col g j)) = argW m c (ix3 g j k) := by
  obtain ⟨-, -, -, -, -, -, e30, e31, -⟩ := steps t
  show (V m c main_v4 : S1024x4096.Idx → EReal) (((cfg0.win 3).blk t).view.emb (ix2 k (col g j))) = _
  rw [← entry_inW m c k g j]
  congr 1
  funext a; apply Fin.ext
  match a with
  | ⟨0, _⟩ => show win0_3.index t (0 : Fin 2) * 1024 + 1 * k.val = k.val; rw [e30]; omega
  | ⟨1, _⟩ => show win0_3.index t (1 : Fin 2) * 4096 + 1 * (col g j).val = (col g j).val; rw [e31]; omega

theorem ublk_at (c : Dev nD) (t : Fin cfg0.N) (k : Fin 1024) (g : Fin 4) (j : Fin 1024) :
    ublk m c t (ix2 k (col g j)) = argU m c (ix3 g j k) := by
  obtain ⟨-, -, -, -, -, -, -, -, e40, e41, -⟩ := steps t
  show (V m c main_v7 : S1024x4096.Idx → EReal) (((cfg0.win 4).blk t).view.emb (ix2 k (col g j))) = _
  rw [← entry_hidW m c k g j]
  congr 1
  funext a; apply Fin.ext
  match a with
  | ⟨0, _⟩ => show win0_4.index t (0 : Fin 2) * 1024 + 1 * k.val = k.val; rw [e40]; omega
  | ⟨1, _⟩ => show win0_4.index t (1 : Fin 2) * 4096 + 1 * (col g j).val = (col g j).val; rw [e41]; omega

theorem bblk_at (c : Dev nD) (t : Fin cfg0.N) (g : Fin 4) (j : Fin 1024) :
    bblk m c t (ix2 (0 : Fin 1) (col g j)) = argBW m c (ix2 g j) + argBU m c (ix2 g j) := by
  obtain ⟨-, -, -, -, -, -, -, -, -, -, e50, e51, -⟩ := steps t
  show (V m c main_v9 : S1x4096.Idx → EReal) (((cfg0.win 5).blk t).view.emb (ix2 (0 : Fin 1) (col g j))) = _
  rw [← entry_bias m c g j]
  congr 1
  funext a; apply Fin.ext
  match a with
  | ⟨0, _⟩ => show win0_5.index t (0 : Fin 2) * 1 + 1 * 0 = 0; rw [e50]
  | ⟨1, _⟩ => show win0_5.index t (1 : Fin 2) * 4096 + 1 * (col g j).val = (col g j).val; rw [e51]; omega

/-- At point `t`, row `p` of the loaded blocks is batch row `row t p` of the arguments. -/
theorem loaded (c : Dev nD) (t : Fin cfg0.N) (p : Fin 256) :
    Loaded (View.ld (xblk m c t) r0_0) (View.ld (hblk m c t) r0_0) (View.ld (wblk m c t) r0_1) (View.ld (ublk m c t) r0_1)
      (View.ld (bblk m c t) r0_2) (View.ld (cblk m c t) r0_0)
      (argX m c) (argH m c) (argC m c) (argW m c) (argU m c) (argBW m c) (argBU m c) p (row t p) where
  input := fun k => by rw [View.ld_unit_zero (S := S256x1024) hz]; exact xblk_at m c t p k
  state := fun k => by rw [View.ld_unit_zero (S := S256x1024) hz]; exact hblk_at m c t p k
  memory := fun j => by rw [View.ld_unit_zero (S := S256x1024) hz]; exact cblk_at m c t p j
  inW := fun k g j => by rw [View.ld_unit_zero (S := S1024x4096) hz]; exact wblk_at m c t k g j
  hidW := fun k g j => by rw [View.ld_unit_zero (S := S1024x4096) hz]; exact ublk_at m c t k g j
  bias := fun g j => by rw [View.ld_unit_zero (S := S1x4096) hz]; exact bblk_at m c t g j

/-! ## What each point writes back -/

/-- Row `p`, column `j` of a result's block at point `t` is entry (`row t p`, j) of the array. -/
theorem out_hidden_at (t : Fin cfg0.N) (p : Fin 256) (j : Fin 1024) :
    (((cfg0.win 6).blk t).view.emb (ix2 p j) : S4096x1024.Idx) = ix2 (row t p) j := by
  obtain ⟨-, -, -, -, -, -, -, -, -, -, -, -, e60, e61, -⟩ := steps t
  funext a; apply Fin.ext
  match a with
  | ⟨0, _⟩ => show win0_6.index t (0 : Fin 2) * 256 + 1 * p.val = t.val * 256 + p.val; rw [e60]; omega
  | ⟨1, _⟩ => show win0_6.index t (1 : Fin 2) * 1024 + 1 * j.val = j.val; rw [e61]; omega

theorem out_cell_at (t : Fin cfg0.N) (p : Fin 256) (j : Fin 1024) :
    (((cfg0.win 7).blk t).view.emb (ix2 p j) : S4096x1024.Idx) = ix2 (row t p) j := by
  obtain ⟨-, -, -, -, -, -, -, -, -, -, -, -, -, -, e70, e71⟩ := steps t
  funext a; apply Fin.ext
  match a with
  | ⟨0, _⟩ => show win0_7.index t (0 : Fin 2) * 256 + 1 * p.val = t.val * 256 + p.val; rw [e70]; omega
  | ⟨1, _⟩ => show win0_7.index t (1 : Fin 2) * 1024 + 1 * j.val = j.val; rw [e71]; omega

/-- What the body leaves in the first result's buffer, entry by entry, over any loaded blocks. -/
theorem left_hidden (x0 x1 : Vec Ideal S256x1024 .bf16) (x2 : Vec Ideal S256x1024 .f32) (x3 x4 : Vec Ideal S1024x4096 .bf16)
    (x5 : Vec Ideal S1x4096 .f32) (y : S256x1024.Idx) :
    out0_6 x0 x1 x2 x3 x4 x5 y
      = E6 (View.ld x0 r0_0) (View.ld x1 r0_0) (View.ld x3 r0_1) (View.ld x4 r0_1) (View.ld x5 r0_2) (View.ld x2 r0_0) y := by
  unfold out0_6
  exact canon6_eq (View.ld x0 r0_0) (View.ld x1 r0_0) (View.ld x3 r0_1) (View.ld x4 r0_1) (View.ld x5 r0_2) (View.ld x2 r0_0) y

/-- What the body leaves in the second result's buffer, entry by entry, over any loaded blocks. -/
theorem left_cell (x0 x1 : Vec Ideal S256x1024 .bf16) (x2 : Vec Ideal S256x1024 .f32) (x3 x4 : Vec Ideal S1024x4096 .bf16)
    (x5 : Vec Ideal S1x4096 .f32) (y : S256x1024.Idx) :
    out0_7 x0 x1 x2 x3 x4 x5 y
      = E7 (View.ld x0 r0_0) (View.ld x1 r0_0) (View.ld x3 r0_1) (View.ld x4 r0_1) (View.ld x5 r0_2) (View.ld x2 r0_0) y := by
  unfold out0_7
  exact canon7_eq (View.ld x0 r0_0) (View.ld x1 r0_0) (View.ld x3 r0_1) (View.ld x4 r0_1) (View.ld x5 r0_2) (View.ld x2 r0_0) y

/-- Point `t` writes back to the first result its block of the new hidden state. -/
theorem flushed_hidden (c : Dev nD) (t : Fin cfg0.N) :
    (dats m 0 c).flushed 6 t = ((cfg0.win 6).blk t).view.read (Elt Ideal) (hiddenOf m c) := by
  rw [Value.flushed6]
  refine funext fun (y : S256x1024.Idx) => ?_
  obtain ⟨p, j, rfl⟩ : ∃ (p : Fin 256) (j : Fin 1024), y = ix2 p j := ⟨y 0, y 1, eq_ix2 y⟩
  show out0_6 (xblk m c t) (hblk m c t) (cblk m c t) (wblk m c t) (ublk m c t) (bblk m c t) (ix2 p j)
    = hiddenOf m c (((cfg0.win 6).blk t).view.emb (ix2 p j))
  rw [out_hidden_at]
  refine (left_hidden (xblk m c t) (hblk m c t) (cblk m c t) (wblk m c t) (ublk m c t) (bblk m c t) (ix2 p j)).trans ?_
  exact block_hidden (loaded m c t p) j

/-- Point `t` writes back to the second result its block of the new cell state. -/
theorem flushed_cell (c : Dev nD) (t : Fin cfg0.N) :
    (dats m 0 c).flushed 7 t = ((cfg0.win 7).blk t).view.read (Elt Ideal) (cellOf m c) := by
  rw [Value.flushed7]
  refine funext fun (y : S256x1024.Idx) => ?_
  obtain ⟨p, j, rfl⟩ : ∃ (p : Fin 256) (j : Fin 1024), y = ix2 p j := ⟨y 0, y 1, eq_ix2 y⟩
  show out0_7 (xblk m c t) (hblk m c t) (cblk m c t) (wblk m c t) (ublk m c t) (bblk m c t) (ix2 p j)
    = cellOf m c (((cfg0.win 7).blk t).view.emb (ix2 p j))
  rw [out_cell_at]
  refine (left_cell (xblk m c t) (hblk m c t) (cblk m c t) (wblk m c t) (ublk m c t) (bblk m c t) (ix2 p j)).trans ?_
  exact block_cell (loaded m c t p) j

/-! ## The sixteen blocks cover the rows -/

theorem mem_hidden_blk (t : Fin cfg0.N) (i : S4096x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v10_0).slice (win0_6.rect t)).set ↔ _
  rw [View.set_slice_whole, Rect.mem_set_unit]
  exact Iff.rfl

theorem mem_cell_blk (t : Fin cfg0.N) (i : S4096x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v10_1).slice (win0_7.rect t)).set ↔ _
  rw [View.set_slice_whole, Rect.mem_set_unit]
  exact Iff.rfl

/-- The point whose block holds row `r`. -/
def pointOf (i : S4096x1024.Idx) : Fin cfg0.N :=
  ⟨(i 0).val / 256, (show (i 0).val / 256 < 16 by have h := (i 0).isLt; have h' : (i 0).val < 4096 := h; omega).trans_eq N_0.symm⟩

theorem cover_hidden (i : S4096x1024.Idx) :
    ∃ t : Fin cfg0.N, (cfg0.win 6).flush t = true ∧ i ∈ ((cfg0.win 6).blk t).view.set := by
  have h0 : (i 0).val < 4096 := (i 0).isLt
  have h1 : (i 1).val < 1024 := (i 1).isLt
  obtain ⟨-, -, -, -, -, -, -, -, -, -, -, -, e60, e61, -⟩ := steps (pointOf i)
  have ht : (pointOf i).val = (i 0).val / 256 := rfl
  refine ⟨pointOf i, flush0_6 (pointOf i), ?_⟩
  rw [mem_hidden_blk]
  intro a
  match a with
  | ⟨0, _⟩ =>
    show win0_6.index (pointOf i) (0 : Fin 2) * 256 ≤ (i 0).val ∧ (i 0).val < win0_6.index (pointOf i) (0 : Fin 2) * 256 + 256
    rw [e60, ht]; omega
  | ⟨1, _⟩ =>
    show win0_6.index (pointOf i) (1 : Fin 2) * 1024 ≤ (i 1).val ∧ (i 1).val < win0_6.index (pointOf i) (1 : Fin 2) * 1024 + 1024
    rw [e61]; omega

theorem cover_cell (i : S4096x1024.Idx) :
    ∃ t : Fin cfg0.N, (cfg0.win 7).flush t = true ∧ i ∈ ((cfg0.win 7).blk t).view.set := by
  have h0 : (i 0).val < 4096 := (i 0).isLt
  have h1 : (i 1).val < 1024 := (i 1).isLt
  obtain ⟨-, -, -, -, -, -, -, -, -, -, -, -, -, -, e70, e71⟩ := steps (pointOf i)
  have ht : (pointOf i).val = (i 0).val / 256 := rfl
  refine ⟨pointOf i, flush0_7 (pointOf i), ?_⟩
  rw [mem_cell_blk]
  intro a
  match a with
  | ⟨0, _⟩ =>
    show win0_7.index (pointOf i) (0 : Fin 2) * 256 ≤ (i 0).val ∧ (i 0).val < win0_7.index (pointOf i) (0 : Fin 2) * 256 + 256
    rw [e70, ht]; omega
  | ⟨1, _⟩ =>
    show win0_7.index (pointOf i) (1 : Fin 2) * 1024 ≤ (i 1).val ∧ (i 1).val < win0_7.index (pointOf i) (1 : Fin 2) * 1024 + 1024
    rw [e71]; omega

/-! ## The two arrays after the run -/

theorem final_hidden (c : Dev nD) : (dats m 0 c).arrAt 6 cfg0.N = hiddenOf m c :=
  (dats m 0 c).arrAt_eq_of_cover 6 (hiddenOf m c) (fun t _ => flushed_hidden m c t) cover_hidden

theorem final_cell (c : Dev nD) : (dats m 0 c).arrAt 7 cfg0.N = cellOf m c :=
  (dats m 0 c).arrAt_eq_of_cover 7 (cellOf m c) (fun t _ => flushed_cell m c t) cover_cell

/-- Every run of the kernel program ends with the first result at the new hidden state and the second at the new cell
    state of the argument arrays, which are unchanged. -/
theorem run : θ_run defs (onTc (τ := τ) (main (F := Ideal))) ⟨m, fun _ => 0, ρ⟩ fun r => ∀ c : Dev nD,
      r.2.mem ((c : Thread nD τ).loc main_v10_0) = hiddenOf m c
      ∧ r.2.mem ((c : Thread nD τ).loc main_v10_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks m ρ)

end Cert.KernelIdeal.ArrayValue
-- ==== Proof.ReferenceCell.lean ====
/-
  The reference computes the cell formulas.

  The reference forms, for all four gates at once, the 4 × 4096 × 1024 array of pre-activations

      (W·x + bW) + (U·h + bU):

  each product contracts the feature axis of the weights (gate × unit × feature) with that of the batch (row × feature),
  which gives gate × unit × row and is then transposed to gate × row × unit; each bias (gate × unit) is broadcast along the
  rows. Entry (g, b, j) of that array is `pre g b j` (`summed_at`). Gate `g` is then cut out as the slab `g` of the first
  axis and re-shaped to rows × units, which reads entry (g, b, j) at (b, j) (`gate0_at` … `gate3_at`). The logistic function
  is spelled with the constant one, a sum, an exponential of a negation and a quotient (`sigma0_at` … `sigma2_at`, by
  `logistic_spelled`), and the two results are the cell formulas over these (`cell_eq`, `hidden_eq`).
-/
import proofs.«180398_j80891414053127_1_alg».proof.Proof.Gen.ReferenceIdeal.Read
import proofs.«180398_j80891414053127_1_alg».proof.Proof.CellSpec

noncomputable section

open scoped BigOperators

namespace Cert.ReferenceIdeal.RefValue

open Cert.ReferenceIdeal Cert.ReferenceIdeal.Gen Cert.ReferenceIdeal.Read Cert.LstmCell
open Idealize.ShloMosaic Idealize.ShloMosaic.ValueIdx

variable (x h c : (⟨S4096x1024, .f32⟩ : BufTy).Contents (Elt Ideal))
  (W U : (⟨S4x1024x1024, .f32⟩ : BufTy).Contents (Elt Ideal)) (bW bU : (⟨S4x1024, .f32⟩ : BufTy).Contents (Elt Ideal))

/-! ## The summed pre-activations -/

/-- Entry (g, b, j) of the array of all four gates' pre-activations. -/
theorem summed_at (g : Fin 4) (b : Fin 4096) (j : Fin 1024) :
    val_main_v10 (F := Ideal) x h W bW U bU (ix3 g b j) = pre x h W U bW bU g b j := by
  rw [val_main_v10_apply, val_main_v4_apply, val_main_v9_apply, val_main_v1_apply, val_main_v3_apply, val_main_v2_apply,
    val_main_v6_apply, val_main_v8_apply, val_main_v7_apply, val_main_v0_apply, val_main_v5_apply]
  have eW : ∀ k : Fin 1024, lidx_main_v0 (idx_main_v1 (ix3 g b j)) k = ix3 g j k := fun k => funext fun a => Fin.ext (by
    match a with | ⟨0, _⟩ => rfl | ⟨1, _⟩ => rfl | ⟨2, _⟩ => rfl)
  have ex : ∀ k : Fin 1024, ridx_main_v0 (idx_main_v1 (ix3 g b j)) k = ix2 b k := fun k => funext fun a => Fin.ext (by
    match a with | ⟨0, _⟩ => rfl | ⟨1, _⟩ => rfl)
  have eU : ∀ k : Fin 1024, lidx_main_v5 (idx_main_v6 (ix3 g b j)) k = ix3 g j k := fun k => funext fun a => Fin.ext (by
    match a with | ⟨0, _⟩ => rfl | ⟨1, _⟩ => rfl | ⟨2, _⟩ => rfl)
  have eh : ∀ k : Fin 1024, ridx_main_v5 (idx_main_v6 (ix3 g b j)) k = ix2 b k := fun k => funext fun a => Fin.ext (by
    match a with | ⟨0, _⟩ => rfl | ⟨1, _⟩ => rfl)
  have ebW : idx_main_v2 (idx_main_v3 (ix3 g b j)) = ix2 g j := funext fun a => Fin.ext (by
    match a with | ⟨0, _⟩ => rfl | ⟨1, _⟩ => rfl)
  have ebU : idx_main_v7 (idx_main_v8 (ix3 g b j)) = ix2 g j := funext fun a => Fin.ext (by
    match a with | ⟨0, _⟩ => rfl | ⟨1, _⟩ => rfl)
  simp only [eW, ex, eU, eh, ebW, ebU]
  rfl

/-! ## The four gates, cut out and re-shaped -/

/-- Re-shaping slab `g` (one gate, 1 × 4096 × 1024) to 4096 × 1024 reads entry (g, b, j) at (b, j). -/
theorem slab0_at (b : Fin 4096) (j : Fin 1024) : idx_main_v11 (idx_main_v12 (ix2 b j)) = ix3 (0 : Fin 4) b j := by
  have hb := b.isLt; have hj := j.isLt
  funext a; apply Fin.ext
  match a with
  | ⟨0, _⟩ => rfl
  | ⟨1, _⟩ => show (b.val * 1024 + j.val) / 1024 % 4096 = b.val; omega
  | ⟨2, _⟩ => show (b.val * 1024 + j.val) % 1024 = j.val; omega
theorem slab1_at (b : Fin 4096) (j : Fin 1024) : idx_main_v19 (idx_main_v20 (ix2 b j)) = ix3 (1 : Fin 4) b j := by
  have hb := b.isLt; have hj := j.isLt
  funext a; apply Fin.ext
  match a with
  | ⟨0, _⟩ => rfl
  | ⟨1, _⟩ => show (b.val * 1024 + j.val) / 1024 % 4096 = b.val; omega
  | ⟨2, _⟩ => show (b.val * 1024 + j.val) % 1024 = j.val; omega
theorem slab2_at (b : Fin 4096) (j : Fin 1024) : idx_main_v27 (idx_main_v28 (ix2 b j)) = ix3 (2 : Fin 4) b j := by
  have hb := b.isLt; have hj := j.isLt
  funext a; apply Fin.ext
  match a with
  | ⟨0, _⟩ => rfl
  | ⟨1, _⟩ => show (b.val * 1024 + j.val) / 1024 % 4096 = b.val; omega
  | ⟨2, _⟩ => show (b.val * 1024 + j.val) % 1024 = j.val; omega
theorem slab3_at (b : Fin 4096) (j : Fin 1024) : idx_main_v35 (idx_main_v36 (ix2 b j)) = ix3 (3 : Fin 4) b j := by
  have hb := b.isLt; have hj := j.isLt
  funext a; apply Fin.ext
  match a with
  | ⟨0, _⟩ => rfl
  | ⟨1, _⟩ => show (b.val * 1024 + j.val) / 1024 % 4096 = b.val; omega
  | ⟨2, _⟩ => show (b.val * 1024 + j.val) % 1024 = j.val; omega

theorem gate0_at (b : Fin 4096) (j : Fin 1024) :
    val_main_v12 (F := Ideal) x h W bW U bU (ix2 b j) = pre x h W U bW bU 0 b j := by
  rw [val_main_v12_apply, val_main_v11_apply, slab0_at, summed_at]
theorem gate1_at (b : Fin 4096) (j : Fin 1024) :
    val_main_v20 (F := Ideal) x h W bW U bU (ix2 b j) = pre x h W U bW bU 1 b j := by
  rw [val_main_v20_apply, val_main_v19_apply, slab1_at, summed_at]
theorem gate2_at (b : Fin 4096) (j : Fin 1024) :
    val_main_v28 (F := Ideal) x h W bW U bU (ix2 b j) = pre x h W U bW bU 2 b j := by
  rw [val_main_v28_apply, val_main_v27_apply, slab2_at, summed_at]
theorem gate3_at (b : Fin 4096) (j : Fin 1024) :
    val_main_v36 (F := Ideal) x h W bW U bU (ix2 b j) = pre x h W U bW bU 3 b j := by
  rw [val_main_v36_apply, val_main_v35_apply, slab3_at, summed_at]

/-! ## The logistic gates -/

theorem sigma0_at (b : Fin 4096) (j : Fin 1024) :
    val_main_v18 (F := Ideal) x h W bW U bU (ix2 b j) = Ideal.logistic (pre x h W U bW bU 0 b j) := by
  rw [val_main_v18_apply, val_main_v17_apply, val_main_cst_0_apply, val_main_v16_apply, val_main_v15_apply,
    val_main_cst_apply, val_main_v14_apply, val_main_v13_apply, gate0_at]
  exact logistic_spelled _
theorem sigma1_at (b : Fin 4096) (j : Fin 1024) :
    val_main_v26 (F := Ideal) x h W bW U bU (ix2 b j) = Ideal.logistic (pre x h W U bW bU 1 b j) := by
  rw [val_main_v26_apply, val_main_v25_apply, val_main_cst_2_apply, val_main_v24_apply, val_main_v23_apply,
    val_main_cst_1_apply, val_main_v22_apply, val_main_v21_apply, gate1_at]
  exact logistic_spelled _
theorem sigma2_at (b : Fin 4096) (j : Fin 1024) :
    val_main_v34 (F := Ideal) x h W bW U bU (ix2 b j) = Ideal.logistic (pre x h W U bW bU 2 b j) := by
  rw [val_main_v34_apply, val_main_v33_apply, val_main_cst_4_apply, val_main_v32_apply, val_main_v31_apply,
    val_main_cst_3_apply, val_main_v30_apply, val_main_v29_apply, gate2_at]
  exact logistic_spelled _

/-! ## The two results -/

/-- The reference's second result is the new cell state. -/
theorem cell_eq : val_main_v40 (F := Ideal) x h c W bW U bU = cell x h c W U bW bU := by
  funext i
  obtain ⟨b, j, rfl⟩ : ∃ (b : Fin 4096) (j : Fin 1024), i = ix2 b j := ⟨i 0, i 1, eq_ix2 i⟩
  rw [val_main_v40_apply, val_main_v38_apply, val_main_v39_apply, val_main_v37_apply, sigma0_at, sigma1_at, gate3_at]
  rfl

/-- The reference's first result is the new hidden state. -/
theorem hidden_eq : val_main_v42 (F := Ideal) x h c W bW U bU = hidden x h c W U bW bU := by
  funext i
  obtain ⟨b, j, rfl⟩ : ∃ (b : Fin 4096) (j : Fin 1024), i = ix2 b j := ⟨i 0, i 1, eq_ix2 i⟩
  rw [val_main_v42_apply, val_main_v41_apply, sigma2_at, cell_eq]
  rfl

end Cert.ReferenceIdeal.RefValue
-- ==== Proof.lean ====
/-
  An LSTM cell step as one fused kernel, against the reference written with two stacked products.

  Both programs compute, for a batch of 4096 rows, four gates' pre-activations

      pre g b j = (∑ k, W (g, j, k) · x (b, k) + bW (g, j)) + (∑ k, U (g, j, k) · h (b, k) + bU (g, j))

  and from them the new cell state σ(pre 0)·tanh(pre 3) + σ(pre 1)·c and the new hidden state σ(pre 2)·tanh(cell), with
  σ z = 1 / (1 + e^(-z)) (CellSpec.lean). The reference forms the pre-activations as written (ReferenceCell.lean). The kernel
  fuses the four gates into 4096 columns, multiplies with the factors in the other order, adds the two sums first and
  the two biases first, and works on 256 batch rows at each of 16 grid points (KernelBlock.lean, one block;
  KernelArrays.lean, the whole arrays). At the extended reals the narrowing of the matrix operands to bf16 is the identity,
  each matrix product is the plain sum of products, the product is commutative and the sum commutative and associative,
  so the two programs' results are one function of the arguments, entry by entry; no finiteness of the inputs is needed
  for that, and the precondition is not opened.

  The kernel's idealization rewrote nothing, so `preserves` is trivial. The two kernel frames are the generated ones; the
  reference's frame is its run with the results dropped.
-/
import proofs.«180398_j80891414053127_1_alg».proof.Defs
import proofs.«180398_j80891414053127_1_alg».proof.Proof.Gen.Kernel
import proofs.«180398_j80891414053127_1_alg».proof.Proof.Gen.Kernel.Skeleton
import proofs.«180398_j80891414053127_1_alg».proof.Proof.Gen.Kernel.Launch
import proofs.«180398_j80891414053127_1_alg».proof.Proof.Gen.Kernel.Points
import proofs.«180398_j80891414053127_1_alg».proof.Proof.Gen.Kernel.Frame
import proofs.«180398_j80891414053127_1_alg».proof.Proof.Gen.KernelIdeal
import proofs.«180398_j80891414053127_1_alg».proof.Proof.Gen.KernelIdeal.Skeleton
import proofs.«180398_j80891414053127_1_alg».proof.Proof.Gen.KernelIdeal.Launch
import proofs.«180398_j80891414053127_1_alg».proof.Proof.Gen.KernelIdeal.Points
import proofs.«180398_j80891414053127_1_alg».proof.Proof.Gen.KernelIdeal.Frame
import proofs.«180398_j80891414053127_1_alg».proof.Proof.Gen.ReferenceIdeal
import proofs.«180398_j80891414053127_1_alg».proof.Proof.Gen.Pre_finite_inputs
import proofs.«180398_j80891414053127_1_alg».proof.Proof.Gen.KernelIdeal.Value
import proofs.«180398_j80891414053127_1_alg».proof.Proof.Gen.ReferenceIdeal.Run
import proofs.«180398_j80891414053127_1_alg».proof.Proof.Gen.ReferenceIdeal.Read
import proofs.«180398_j80891414053127_1_alg».proof.Proof.CellSpec
import proofs.«180398_j80891414053127_1_alg».proof.Proof.KernelArrays
import proofs.«180398_j80891414053127_1_alg».proof.Proof.ReferenceCell
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- The kernel's first result and the reference's are the new hidden state, their second results the new cell state, of
    arguments that agree. -/
theorem algebraic : Cert.algebraic_KernelIdeal_ReferenceIdeal := by
  intro m ρ m' ρ' _ hagree
  refine ⟨fun c => Cert.KernelIdeal.ArrayValue.hiddenOf m c, fun c => Cert.KernelIdeal.ArrayValue.cellOf m c,
    Cert.KernelIdeal.ArrayValue.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨?_, ?_, (h c).2.2⟩
  · rw [(h c).1, Cert.ReferenceIdeal.Read.val_main_v42_eq, a0, a1, a2, a3, a4, a5, a6]
    exact Cert.ReferenceIdeal.RefValue.hidden_eq _ _ _ _ _ _ _
  · refine ((h c).2.1.trans (Cert.ReferenceIdeal.Read.val_main_v40_eq _ _ _ _ _ _ _)).trans ?_
    rw [a0, a1, a2, a3, a4, a5, a6]
    exact Cert.ReferenceIdeal.RefValue.cell_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
